-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128 .f32) (main_arg6 : FVec F S128x8 .f32) (main_arg7 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S1x8 : Shape := ⟨2, ![1, 8]⟩
abbrev S50000x8 : Shape := ⟨2, ![50000, 8]⟩
abbrev S5000x8 : Shape := ⟨2, ![5000, 8]⟩

abbrev nBuf : Space → Nat
  | .hbm => 103
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S_, .f32⟩
  | .hbm, ⟨26, _⟩ => ⟨S850000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S850000x1, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S1x8, .f32⟩
  | .hbm, ⟨102, _⟩ => ⟨S50000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x8, .f32⟩
  | .local _ .vmem, ⟨15, _⟩ => ⟨S1x8, .f32⟩
  | .local _ .vmem, ⟨16, _⟩ => ⟨S5000x8, .f32⟩
  | .local _ .vmem, ⟨17, _⟩ => ⟨S5000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x8.size a ≤ S128x8.size a
  hwx2_1 : ∀ i : grid2.Coords, EltTy.bits .f32 = 32 ∨ (Rect.block (s := S128x8) S128x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S50000x8.size a
  hwx2_3 : ∀ i : grid2.Coords, EltTy.bits .f32 = 32 ∨ (Rect.block (s := S50000x8) S5000x8.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x8 : Shape := ⟨2, ![50000, 8]⟩
abbrev S1x8 : Shape := ⟨2, ![1, 8]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S_, .f32⟩
  | .hbm, ⟨26, _⟩ => ⟨S850000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S50000x128, .f32⟩
  | .hbm, ⟨56, _⟩ => ⟨S850000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S50000x8, .f32⟩
  | .hbm, ⟨96, _⟩ => ⟨S1x8, .f32⟩
  | .hbm, ⟨97, _⟩ => ⟨S50000x8, .f32⟩
  | .hbm, ⟨98, _⟩ => ⟨S50000x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x8_S50000x8_1_0_0_1_n_n_wf : DotDims.WF S50000x128 S128x8 S50000x8 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.HostStages.lean ====
/-
  The host operations around the three products, read buffer by buffer against the plain program's stages.

  Both programs run the same host operations on the edge list: the source and target index vectors `row` and `col`
  (the edges followed by the self loops), the degree by a scatter-add of ones at the targets, `dinv = deg > 0 ? rsqrt deg : 0`
  and the edge weights `norm = dinv[row] · dinv[col]`; and after each of the first two products `h` the same aggregation
  `agg h = scatter_add (norm · h[row]) at col, plus the bias row` (`agg1`, `agg2`: the plain program's stages with `h` in
  the place of its `dot_general`). Here each buffer the kernels or a later stretch read is shown to hold the plain
  program's stage value — or, for a stretch after a kernel, that stage's term over whatever the kernel left —, at any
  float family: the operations are the same terms, so each fact is a reading of the buffer back through its stretch.
  A buffer a stretch or a kernel does not write keeps its contents.
-/
import proofs.«176271_j59846074302981_1_alg».proof.Proof.Gen.KernelIdeal.Frame
import proofs.«176271_j59846074302981_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStages

open Cert.KernelIdeal Cert.KernelIdeal.Gen
open Cert.ReferenceIdeal.ReadP (val_main_v3 val_main_v6 val_main_v34 val_main_v35 val_main_v42 val_main_v43 val_main_v44 val_main_v45 val_main_v46
  val_main_v47 val_main_v48 val_main_v50 val_main_v51 val_main_v52 val_main_v59 val_main_v60 val_main_v61 val_main_v62 val_main_v63
  val_main_v64 val_main_v65 val_main_v67 val_main_v68)

variable {F : FTy → Type} [FloatOps F]

/-! ## The aggregation after a product, over any product `h` -/

/-- After the first product: gather `h`'s rows at the sources, weight them, scatter-add at the targets, add `b1`. -/
def agg1 (h : (⟨Cert.ReferenceIdeal.S50000x128, .f32⟩ : BufTy).Contents (Elt F)) (x1 : (⟨Cert.ReferenceIdeal.S2x800000, .i32⟩ : BufTy).Contents (Elt F))
    (x3 : (⟨Cert.ReferenceIdeal.S128, .f32⟩ : BufTy).Contents (Elt F)) : (⟨Cert.ReferenceIdeal.S50000x128, .f32⟩ : BufTy).Contents (Elt F) :=
  addf (Host.scatterAdd Cert.ReferenceIdeal.scatter_S50000x128_S850000x1_S850000x128_1_0_0_1 (val_main_v46 (F := F)) (val_main_v47 (F := F) x1)
      (mulf (val_main_v44 (F := F) x1)
        (Host.gather Cert.ReferenceIdeal.gather_S50000x128_S850000x1_S850000x128_1_0_n_n_0_1_1128 h (val_main_v42 (F := F) x1))))
    (val_main_v50 (F := F) x3)

/-- Over the plain program's first product it is that program's stage. -/
theorem agg1_dot (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F)) :
    agg1 (val_main_v35 (F := F) x0 x2) x1 x3 = val_main_v51 (F := F) x0 x1 x2 x3 := by
  unfold agg1 val_main_v51 val_main_v48 val_main_v45 val_main_v43
  rfl

/-- After the second product, the same with `b2`. -/
def agg2 (h : (⟨Cert.ReferenceIdeal.S50000x128, .f32⟩ : BufTy).Contents (Elt F)) (x1 : (⟨Cert.ReferenceIdeal.S2x800000, .i32⟩ : BufTy).Contents (Elt F))
    (x5 : (⟨Cert.ReferenceIdeal.S128, .f32⟩ : BufTy).Contents (Elt F)) : (⟨Cert.ReferenceIdeal.S50000x128, .f32⟩ : BufTy).Contents (Elt F) :=
  addf (Host.scatterAdd Cert.ReferenceIdeal.scatter_S50000x128_S850000x1_S850000x128_1_0_0_1 (val_main_v63 (F := F)) (val_main_v64 (F := F) x1)
      (mulf (val_main_v61 (F := F) x1)
        (Host.gather Cert.ReferenceIdeal.gather_S50000x128_S850000x1_S850000x128_1_0_n_n_0_1_1128 h (val_main_v59 (F := F) x1))))
    (val_main_v67 (F := F) x5)

theorem agg2_dot (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x128, .f32⟩ : BufTy).Contents (Elt F)) (x5 : (⟨Cert.ReferenceIdeal.S128, .f32⟩ : BufTy).Contents (Elt F)) :
    agg2 (val_main_v52 (F := F) x0 x1 x2 x3 x4) x1 x5 = val_main_v68 (F := F) x0 x1 x2 x3 x4 x5 := by
  unfold agg2 val_main_v68 val_main_v65 val_main_v62 val_main_v60
  rfl

variable (m : (ℓ : Loc nD τ sig) → Buf (Elt F) ℓ) (ρ : Dev nD → PrngReg)

/-! ## Before the first kernel: `W3` -/

theorem W3_row (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results
  rfl

theorem W3_col (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results
  rfl

theorem W3_norm (c : Dev nD) : W3 m ρ c (Proc.devRef .tc main_v34) = val_main_v34 (F := F) (m ((c : Thread nD τ).loc main_arg1)) := by
  show StableHlo.after hostOps0_2 (StableHlo.after hostOps0_1 (StableHlo.after hostOps0 (W0 m ρ c))) (Proc.devRef .tc main_v34) = _
  after_results_simp
  rfl

/-- The first kernel's bias block is the zero vector made a row. -/
theorem W3_bias (c : Dev nD) : W3 m ρ c (Proc.devRef .tc main_v36)
    = shapeCast S1x128 (broadcastInDim S128 ![] bcast_S_S128 (constant (F := F) S_ .f32 0x00000000#32)) shapeCasts_S128_S1x128 := by
  show StableHlo.after hostOps0_2 (StableHlo.after hostOps0_1 (StableHlo.after hostOps0 (W0 m ρ c))) (Proc.devRef .tc main_v36) = _
  after_results
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results

/-! ## After the first kernel: `W4` keeps what the kernel's four arrays are not -/

theorem W4_row (c : Dev nD) : W4 m ρ c (Proc.devRef .tc main_v3) = val_main_v3 (F := F) (m ((c : Thread nD τ).loc main_arg1)) :=
  (W4_of_ne m ρ c main_v3 (by decide)).trans (W3_row m ρ c)
theorem W4_col (c : Dev nD) : W4 m ρ c (Proc.devRef .tc main_v6) = val_main_v6 (F := F) (m ((c : Thread nD τ).loc main_arg1)) :=
  (W4_of_ne m ρ c main_v6 (by decide)).trans (W3_col m ρ c)
theorem W4_norm (c : Dev nD) : W4 m ρ c (Proc.devRef .tc main_v34) = val_main_v34 (F := F) (m ((c : Thread nD τ).loc main_arg1)) :=
  (W4_of_ne m ρ c main_v34 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## Before the second kernel: `W5` -/

set_option maxHeartbeats 2000000 in
/-- The second kernel's input is the aggregation of whatever the first kernel left. -/
theorem W5_agg (c : Dev nD) : W5 m ρ c (Proc.devRef .tc main_v53)
    = agg1 (F := F) (W4 m ρ c (Proc.devRef .tc main_v37)) (m ((c : Thread nD τ).loc main_arg1)) (m ((c : Thread nD τ).loc main_arg3)) := by
  show StableHlo.after hostOps1 (W4 m ρ c) (Proc.devRef .tc main_v53) = _
  after_results_simp
  rw [W4_norm, W4_row, W4_col, W4_arg3]
  rfl

theorem W5_bias (c : Dev nD) : W5 m ρ c (Proc.devRef .tc main_v55)
    = shapeCast S1x128 (broadcastInDim S128 ![] bcast_S_S128 (constant (F := F) S_ .f32 0x00000000#32)) shapeCasts_S128_S1x128 := by
  show StableHlo.after hostOps1 (W4 m ρ c) (Proc.devRef .tc main_v55) = _
  after_results
  rfl

theorem W5_row (c : Dev nD) : W5 m ρ c (Proc.devRef .tc main_v3) = val_main_v3 (F := F) (m ((c : Thread nD τ).loc main_arg1)) := by
  show StableHlo.after hostOps1 (W4 m ρ c) (Proc.devRef .tc main_v3) = _
  after_results
  exact W4_row m ρ c
theorem W5_col (c : Dev nD) : W5 m ρ c (Proc.devRef .tc main_v6) = val_main_v6 (F := F) (m ((c : Thread nD τ).loc main_arg1)) := by
  show StableHlo.after hostOps1 (W4 m ρ c) (Proc.devRef .tc main_v6) = _
  after_results
  exact W4_col m ρ c
theorem W5_norm (c : Dev nD) : W5 m ρ c (Proc.devRef .tc main_v34) = val_main_v34 (F := F) (m ((c : Thread nD τ).loc main_arg1)) := by
  show StableHlo.after hostOps1 (W4 m ρ c) (Proc.devRef .tc main_v34) = _
  after_results
  exact W4_norm m ρ c
theorem W5_arg4 (c : Dev nD) : W5 m ρ c (Proc.devRef .tc main_arg4) = m ((c : Thread nD τ).loc main_arg4) := by
  show StableHlo.after hostOps1 (W4 m ρ c) (Proc.devRef .tc main_arg4) = _
  after_results
  exact W4_arg4 m ρ c
theorem W5_arg5 (c : Dev nD) : W5 m ρ c (Proc.devRef .tc main_arg5) = m ((c : Thread nD τ).loc main_arg5) := by
  show StableHlo.after hostOps1 (W4 m ρ c) (Proc.devRef .tc main_arg5) = _
  after_results
  exact W4_arg5 m ρ c
theorem W5_arg6 (c : Dev nD) : W5 m ρ c (Proc.devRef .tc main_arg6) = m ((c : Thread nD τ).loc main_arg6) := by
  show StableHlo.after hostOps1 (W4 m ρ c) (Proc.devRef .tc main_arg6) = _
  after_results
  exact W4_arg6 m ρ c
theorem W5_arg7 (c : Dev nD) : W5 m ρ c (Proc.devRef .tc main_arg7) = m ((c : Thread nD τ).loc main_arg7) := by
  show StableHlo.after hostOps1 (W4 m ρ c) (Proc.devRef .tc main_arg7) = _
  after_results
  exact W4_arg7 m ρ c

/-! ## After the second kernel: `W6` -/

theorem W6_row (c : Dev nD) : W6 m ρ c (Proc.devRef .tc main_v3) = val_main_v3 (F := F) (m ((c : Thread nD τ).loc main_arg1)) :=
  (W6_of_ne m ρ c main_v3 (by decide)).trans (W5_row m ρ c)
theorem W6_col (c : Dev nD) : W6 m ρ c (Proc.devRef .tc main_v6) = val_main_v6 (F := F) (m ((c : Thread nD τ).loc main_arg1)) :=
  (W6_of_ne m ρ c main_v6 (by decide)).trans (W5_col m ρ c)
theorem W6_norm (c : Dev nD) : W6 m ρ c (Proc.devRef .tc main_v34) = val_main_v34 (F := F) (m ((c : Thread nD τ).loc main_arg1)) :=
  (W6_of_ne m ρ c main_v34 (by decide)).trans (W5_norm m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

/-! ## Before the third kernel: `W7` -/

set_option maxHeartbeats 2000000 in
theorem W7_agg (c : Dev nD) : W7 m ρ c (Proc.devRef .tc main_v72)
    = agg2 (F := F) (W6 m ρ c (Proc.devRef .tc main_v56)) (m ((c : Thread nD τ).loc main_arg1)) (m ((c : Thread nD τ).loc main_arg5)) := by
  show StableHlo.after hostOps2 (W6 m ρ c) (Proc.devRef .tc main_v72) = _
  after_results_simp
  rw [W6_norm, W6_row, W6_col, W6_arg5]
  rfl

/-- The third kernel's bias block is `bfc` made a row. -/
theorem W7_bias (c : Dev nD) : W7 m ρ c (Proc.devRef .tc main_v73)
    = shapeCast S1x8 (m ((c : Thread nD τ).loc main_arg7)) shapeCasts_S8_S1x8 := by
  show StableHlo.after hostOps2 (W6 m ρ c) (Proc.devRef .tc main_v73) = _
  after_results
  rw [W6_arg7]
  rfl

theorem W7_arg6 (c : Dev nD) : W7 m ρ c (Proc.devRef .tc main_arg6) = m ((c : Thread nD τ).loc main_arg6) := by
  show StableHlo.after hostOps2 (W6 m ρ c) (Proc.devRef .tc main_arg6) = _
  after_results
  exact W6_arg6 m ρ c

end Cert.KernelIdeal.HostStages

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Dense.lean ====
/-
  A dense layer `X · W + b` computed tile by tile, as one function of the whole arrays.

  Each of the three matrix products of this network is done on row tiles: a tile `xb` of `X` (rows `n r`), both operands
  narrowed to bf16, multiplied into zeros, and a bias kept as a `[1, M]` block added to every row. Over the extended
  reals narrowing is the identity and the product is the textbook sum, so entry `(r, q)` of the tile's result is
  `∑ k, X (n r, k) · W (k, q) + b (0, q)`: entry `(n r, q)` of ONE function `affine X W b` of the whole arrays
  (`tile_affine`). Against the plain program that function is the whole `dot_general` when the bias block is zero
  (`affine_zero`: adding zero changes no extended real) and the `dot_general` plus the bias vector broadcast over the rows
  when the block is that vector as a row (`affine_bias`). Nothing here depends on the sizes.
-/
import Idealize.ShloMosaic.Lib.ValueIdx
import Idealize.ShloMosaic.Lib.ValueLayout
import Idealize.ShloMosaic.Lib.Pipeline.Value
import Idealize.ShloMosaic.PureOps.Ideal.Laws
import proofs.«176271_j59846074302981_1_alg».proof.Proof.LibAffineRows

noncomputable section

namespace Cert.Dense

open Idealize.ShloMosaic Idealize.ShloMosaic.ValueIdx Cert.Lib

variable {R K M N : ℕ}

/-- `X · W` plus the bias row, entry by entry: at `(p, q)` the sum over `k` of `X (p, k) · W (k, q)`, plus `b (0, q)`. -/
def affine (X : FVec Ideal ⟨2, ![N, K]⟩ .f32) (W : FVec Ideal ⟨2, ![K, M]⟩ .f32) (b : FVec Ideal ⟨2, ![1, M]⟩ .f32) :
    FVec Ideal ⟨2, ![N, M]⟩ .f32 :=
  fun i => (∑ k : Fin K, X (ix2 (i 0) k) * W (ix2 k (i 1))) + b (ix2 (0 : Fin 1) (i 1))

theorem affine_apply (X : FVec Ideal ⟨2, ![N, K]⟩ .f32) (W : FVec Ideal ⟨2, ![K, M]⟩ .f32) (b : FVec Ideal ⟨2, ![1, M]⟩ .f32)
    (p : Fin N) (q : Fin M) :
    affine X W b (ix2 p q) = (∑ k : Fin K, X (ix2 p k) * W (ix2 k q)) + b (ix2 (0 : Fin 1) q) := rfl

/-- ROW BY ROW: where row `r` of the tile `xb` is row `n r` of `X`, the weight block `wb` is `W` and the bias block `bb`
    is `B` (entry by entry), the tile's narrowed product into zeros plus the broadcast bias block is, at `(r, q)`,
    `affine X W B` at `(n r, q)`. -/
theorem tile_affine {dB : DotDims ⟨2, ![R, K]⟩ ⟨2, ![K, M]⟩ ⟨2, ![R, M]⟩} (hB : PlainDot dB)
    (xb : FVec Ideal ⟨2, ![R, K]⟩ .f32) (wb : FVec Ideal ⟨2, ![K, M]⟩ .f32) (bb : FVec Ideal ⟨2, ![1, M]⟩ .f32)
    (X : FVec Ideal ⟨2, ![N, K]⟩ .f32) (W : FVec Ideal ⟨2, ![K, M]⟩ .f32) (B : FVec Ideal ⟨2, ![1, M]⟩ .f32)
    (n : Fin R → Fin N) (hx : ∀ r k, xb (ix2 r k) = X (ix2 (n r) k)) (hw : ∀ k q, wb (ix2 k q) = W (ix2 k q))
    (hb : ∀ q : Fin M, bb (ix2 (0 : Fin 1) q) = B (ix2 (0 : Fin 1) q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩) (r : Fin R) (q : Fin M) :
    addf (matmul dB none (truncf .bf16 xb ht) (truncf .bf16 wb ht) (constant ⟨2, ![R, M]⟩ .f32 0x00000000#32))
        (broadcastTo ⟨2, ![R, M]⟩ (shapeCast ⟨2, ![1, M]⟩ bb hsc) hbc) (ix2 r q)
      = affine X W B (ix2 (n r) q) := by
  rw [addf_apply, matmul_zero_apply hB, broadcastTo_1b_ab_apply, shapeCast_self, affine_apply, hb]
  exact congrArg (· + B (ix2 (0 : Fin 1) q)) (Finset.sum_congr rfl fun k _ => by rw [hx, hw])

/-- With a zero bias block the function is the whole product: the host's `dot_general`. -/
theorem affine_zero {dW : DotDims ⟨2, ![N, K]⟩ ⟨2, ![K, M]⟩ ⟨2, ![N, M]⟩} (hW : PlainDot dW)
    (X : FVec Ideal ⟨2, ![N, K]⟩ .f32) (W : FVec Ideal ⟨2, ![K, M]⟩ .f32) (b : FVec Ideal ⟨2, ![1, M]⟩ .f32)
    (hb : ∀ q : Fin M, b (ix2 (0 : Fin 1) q) = 0) :
    affine X W b = Host.dotGeneral dW none X W := by
  funext i
  obtain ⟨p, q, rfl⟩ : ∃ (p : Fin N) (q : Fin M), i = ix2 p q := ⟨i 0, i 1, eq_ix2 i⟩
  rw [affine_apply, dotGeneral_apply hW, hb, add_zero]

/-- With the bias vector `[M]` as the block's one row, the function is the host's `dot_general` plus that vector made a
    row and broadcast over the rows. -/
theorem affine_bias {dW : DotDims ⟨2, ![N, K]⟩ ⟨2, ![K, M]⟩ ⟨2, ![N, M]⟩} (hW : PlainDot dW)
    (X : FVec Ideal ⟨2, ![N, K]⟩ .f32) (W : FVec Ideal ⟨2, ![K, M]⟩ .f32) (b2 : FVec Ideal ⟨2, ![1, M]⟩ .f32)
    (b : FVec Ideal ⟨1, ![M]⟩ .f32) (hb : ∀ q : Fin M, b2 (ix2 (0 : Fin 1) q) = b (ix1 q))
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) :
    affine X W b2
      = addf (Host.dotGeneral dW none X W) (broadcastInDim ⟨2, ![N, M]⟩ ![0, 1] h2 (broadcastInDim ⟨2, ![1, M]⟩ ![1] h1 b)) := by
  funext i
  obtain ⟨p, q, rfl⟩ : ∃ (p : Fin N) (q : Fin M), i = ix2 p q := ⟨i 0, i 1, eq_ix2 i⟩
  rw [affine_apply, addf_apply, dotGeneral_apply hW, bias_rows_apply, hb]

end Cert.Dense

end
-- ==== Proof.Tiles.lean ====
/-
  The three row-tiled products of the network, each region's output array as one function of the arrays it is entered with.

  A region runs its body at ten grid points. At point `t` the input window 0 holds rows `5000·t … 5000·t + 4999` of its
  array, windows 1 and 2 hold the whole weight matrix and the whole `[1, M]` bias block (their block index never moves),
  and the body stores `tile · W + bias` into the output window, which is written back to rows `5000·t …` of the output
  array. Row `r` of the tile being row `5000·t + r` of the array, the stored block is block `t` of the one function
  `Dense.affine X W b` of the whole arrays (`Dense.tile_affine`); the ten blocks tile the `50000` rows (row `p` lies in the
  block of point `p / 5000`), so the output array ends holding `Dense.affine X W b`. Stated at any contents `V` the region
  may be entered with.
-/
import proofs.«176271_j59846074302981_1_alg».proof.Proof.Gen.KernelIdeal.Frame
import proofs.«176271_j59846074302981_1_alg».proof.Proof.Dense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Lib Cert.Dense

theorem hz : (![0, 0] : Fin 2 → Nat) = fun _ => 0 := funext fun a => by fin_cases a <;> rfl

/-! ## The two matrix-unit records are plain products -/

theorem lhs_sq_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_sq_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_sq_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_sq_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The `[5000,128] · [128,128]` record: one contracted index, the tile's column and the weight's row. -/
theorem plain_sq : PlainDot dot_S5000x128_S128x128_S5000x128_1_0_0_1_n_n :=
  ⟨rfl, rfl, lhs_sq_0, lhs_sq_1, rhs_sq_0, rhs_sq_1⟩

theorem lhs_nar_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem lhs_nar_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
theorem rhs_nar_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
theorem rhs_nar_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl
/-- The `[5000,128] · [128,8]` record, the same. -/
theorem plain_nar : PlainDot dot_S5000x128_S128x8_S5000x8_1_0_0_1_n_n :=
  ⟨rfl, rfl, lhs_nar_0, lhs_nar_1, rhs_nar_0, rhs_nar_1⟩

/-- Row `r` of the tile at point `t` is row `5000·t + r` of the array (ten points). -/
def rowOf (t r : ℕ) (ht : t < 10) (hr : r < 5000) : Fin 50000 := ⟨t * 5000 + r, by omega⟩

variable (V : (c : Dev nD) → (b : Ref sig .tc) → Buf (Elt Ideal) ((c : Thread nD τ).loc b))

/-! ## Region 0: `x · W1` plus its bias block -/

/-- The index maps over the grid: windows 0 and 3 move down the rows with the point, windows 1 and 2 stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := by have h : cfg0.N = 10 := N_0; have := t.isLt; omega

theorem iblk0_0_apply (c : Dev nD) (t : Fin cfg0.N) (r : Fin 5000) (k : Fin 128) :
    (iblk0 V c 0 t : Vec Ideal S5000x128 .f32) (ix2 r k) = (V c main_arg0 : Vec Ideal S50000x128 .f32) (ix2 (rowOf t.val r.val (lt0 t) r.isLt) k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * r.val = t.val * 5000 + r.val; rw [e0]; omega
  | ⟨1, _⟩ => show win0_0.index t 1 * 128 + 1 * k.val = k.val; rw [e1]; omega

theorem iblk0_1_apply (c : Dev nD) (t : Fin cfg0.N) (k : Fin 128) (q : Fin 128) :
    (iblk0 V c 1 t : Vec Ideal S128x128 .f32) (ix2 k q) = (V c main_arg2 : Vec Ideal S128x128 .f32) (ix2 k q) := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

theorem iblk0_2_apply (c : Dev nD) (t : Fin cfg0.N) (q : Fin 128) :
    (iblk0 V c 2 t : Vec Ideal S1x128 .f32) (ix2 (0 : Fin 1) q) = (V c main_v36 : Vec Ideal S1x128 .f32) (ix2 (0 : Fin 1) q) := by
  obtain ⟨-, -, -, -, e4, e5, -⟩ := idx0 t
  unfold iblk0
  rw [View.read_apply]
  show V c main_v36 _ = V c main_v36 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

/-- WHAT POINT `t` WRITES BACK is block `t` of `affine` of the arrays as the region finds them. -/
theorem flushed0_eq (c : Dev nD) (t : Fin cfg0.N) :
    (dat0 V c).flushed 3 t = ((cfg0.win 3).blk t).view.read (Elt Ideal) (affine (V c main_arg0) (V c main_arg2) (V c main_v36)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  obtain ⟨-, -, -, -, -, -, e6, e7⟩ := idx0 t
  unfold k0_pay1
  refine (tile_affine plain_sq (iblk0 V c 0 t) (iblk0 V c 1 t) (iblk0 V c 2 t) (V c main_arg0) (V c main_arg2) (V c main_v36)
    (fun r => rowOf t.val r.val (lt0 t) r.isLt) (fun r k => iblk0_0_apply V c t r k) (fun k q => iblk0_1_apply V c t k q)
    (fun q => iblk0_2_apply V c t q) bitsLt_bf16_f32 shapeCasts_S1x128_S1x128 broadcasts_S1x128_S5000x128 r q).trans ?_
  rw [View.read_apply]
  refine congrArg (affine (V c main_arg0) (V c main_arg2) (V c main_v36)) ?_
  funext a
  apply Fin.ext
  match a with
  | ⟨0, _⟩ => show t.val * 5000 + r.val = win0_3.index t 0 * 5000 + 1 * r.val; rw [e6]; omega
  | ⟨1, _⟩ => show q.val = win0_3.index t 1 * 128 + 1 * q.val; rw [e7]; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v37).slice (win0_3.rect t)).set ↔ _
  rw [View.set_slice_whole, Rect.mem_set_unit]
  exact Iff.rfl

/-- THE ARRAY after region 0: `affine` of the arrays it was entered with (row `p` is in the block of point `p / 5000`). -/
theorem final0 (c : Dev nD) : (dat0 V c).arrAt 3 cfg0.N = affine (V c main_arg0) (V c main_arg2) (V c main_v36) :=
  (dat0 V c).arrAt_eq_of_cover 3 (affine (V c main_arg0) (V c main_arg2) (V c main_v36)) (fun t _ => flushed0_eq V c t) fun i => by
    have hi0 : (i 0).val < 50000 := (i 0).isLt
    have hi1 : (i 1).val < 128 := (i 1).isLt
    have hN : cfg0.N = 10 := N_0
    refine ⟨⟨(i 0).val / 5000, by omega⟩, flush0_3 _, ?_⟩
    rw [mem_blk0]
    obtain ⟨-, -, -, -, -, -, e6, e7⟩ := idx0 ⟨(i 0).val / 5000, by omega⟩
    intro a
    match a with
    | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
    | ⟨1, _⟩ => show win0_3.index _ (1 : Fin 2) * 128 ≤ (i 1).val ∧ (i 1).val < win0_3.index _ (1 : Fin 2) * 128 + 128; rw [e7]; omega

/-! ## Region 1: `agg1 · W2` plus its bias block (the tile passes through an identity reshape first) -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 10 := by have h : cfg1.N = 10 := N_1; have := t.isLt; omega

theorem iblk1_0_apply (c : Dev nD) (t : Fin cfg1.N) (r : Fin 5000) (k : Fin 128) :
    (iblk1 V c 0 t : Vec Ideal S5000x128 .f32) (ix2 r k) = (V c main_v53 : Vec Ideal S50000x128 .f32) (ix2 (rowOf t.val r.val (lt1 t) r.isLt) k) := by
  obtain ⟨e0, e1, -⟩ := idx1 t
  unfold iblk1
  rw [View.read_apply]
  show V c main_v53 _ = V c main_v53 _
  congr 1
  funext a
  apply Fin.ext
  match a with
  | ⟨0, _⟩ => show win1_0.index t 0 * 5000 + 1 * r.val = t.val * 5000 + r.val; rw [e0]; omega
  | ⟨1, _⟩ => show win1_0.index t 1 * 128 + 1 * k.val = k.val; rw [e1]; omega

theorem iblk1_1_apply (c : Dev nD) (t : Fin cfg1.N) (k : Fin 128) (q : Fin 128) :
    (iblk1 V c 1 t : Vec Ideal S128x128 .f32) (ix2 k q) = (V c main_arg4 : Vec Ideal S128x128 .f32) (ix2 k q) := by
  obtain ⟨-, -, e2, e3, -⟩ := idx1 t
  unfold iblk1
  rw [View.read_apply]
  show V c main_arg4 _ = V c main_arg4 _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

theorem iblk1_2_apply (c : Dev nD) (t : Fin cfg1.N) (q : Fin 128) :
    (iblk1 V c 2 t : Vec Ideal S1x128 .f32) (ix2 (0 : Fin 1) q) = (V c main_v55 : Vec Ideal S1x128 .f32) (ix2 (0 : Fin 1) q) := by
  obtain ⟨-, -, -, -, e4, e5, -⟩ := idx1 t
  unfold iblk1
  rw [View.read_apply]
  show V c main_v55 _ = V c main_v55 _
  congr 1
  funext a
  apply Fin.ext
  match a with
  | ⟨0, _⟩ => show win1_2.index t 0 * 1 + 1 * 0 = 0; rw [e4]
  | ⟨1, _⟩ => show win1_2.index t 1 * 128 + 1 * q.val = q.val; rw [e5]; omega

/-- WHAT POINT `t` WRITES BACK is block `t` of `affine` of the arrays as region 1 finds them. -/
theorem flushed1_eq (c : Dev nD) (t : Fin cfg1.N) :
    (dat1 V c).flushed 3 t = ((cfg1.win 3).blk t).view.read (Elt Ideal) (affine (V c main_v53) (V c main_arg4) (V c main_v55)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  obtain ⟨-, -, -, -, -, -, e6, e7⟩ := idx1 t
  unfold k1_pay1
  refine (tile_affine plain_sq (shapeCast S5000x128 (iblk1 V c 0 t) shapeCasts_S5000x128_S5000x128) (iblk1 V c 1 t) (iblk1 V c 2 t)
    (V c main_v53) (V c main_arg4) (V c main_v55)
    (fun r => rowOf t.val r.val (lt1 t) r.isLt) (fun r k => (congrFun (shapeCast_self (iblk1 V c 0 t : Vec Ideal S5000x128 .f32) shapeCasts_S5000x128_S5000x128) (ix2 r k)).trans (iblk1_0_apply V c t r k))
    (fun k q => iblk1_1_apply V c t k q)
    (fun q => iblk1_2_apply V c t q) bitsLt_bf16_f32 shapeCasts_S1x128_S1x128 broadcasts_S1x128_S5000x128 r q).trans ?_
  rw [View.read_apply]
  refine congrArg (affine (V c main_v53) (V c main_arg4) (V c main_v55)) ?_
  funext a
  apply Fin.ext
  match a with
  | ⟨0, _⟩ => show t.val * 5000 + r.val = win1_3.index t 0 * 5000 + 1 * r.val; rw [e6]; omega
  | ⟨1, _⟩ => show q.val = win1_3.index t 1 * 128 + 1 * q.val; rw [e7]; omega

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v56).slice (win1_3.rect t)).set ↔ _
  rw [View.set_slice_whole, Rect.mem_set_unit]
  exact Iff.rfl

/-- THE ARRAY after region 1. -/
theorem final1 (c : Dev nD) : (dat1 V c).arrAt 3 cfg1.N = affine (V c main_v53) (V c main_arg4) (V c main_v55) :=
  (dat1 V c).arrAt_eq_of_cover 3 (affine (V c main_v53) (V c main_arg4) (V c main_v55)) (fun t _ => flushed1_eq V c t) fun i => by
    have hi0 : (i 0).val < 50000 := (i 0).isLt
    have hi1 : (i 1).val < 128 := (i 1).isLt
    have hN : cfg1.N = 10 := N_1
    refine ⟨⟨(i 0).val / 5000, by omega⟩, flush1_3 _, ?_⟩
    rw [mem_blk1]
    obtain ⟨-, -, -, -, -, -, e6, e7⟩ := idx1 ⟨(i 0).val / 5000, by omega⟩
    intro a
    match a with
    | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
    | ⟨1, _⟩ => show win1_3.index _ (1 : Fin 2) * 128 ≤ (i 1).val ∧ (i 1).val < win1_3.index _ (1 : Fin 2) * 128 + 128; rw [e7]; omega

/-! ## Region 2: `agg2 · Wfc` plus the bias block `bfc` as a row: `[5000,128] · [128,8]` -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) : t.val < 10 := by have h : cfg2.N = 10 := N_2; have := t.isLt; omega

theorem iblk2_0_apply (c : Dev nD) (t : Fin cfg2.N) (r : Fin 5000) (k : Fin 128) :
    (iblk2 V c 0 t : Vec Ideal S5000x128 .f32) (ix2 r k) = (V c main_v72 : Vec Ideal S50000x128 .f32) (ix2 (rowOf t.val r.val (lt2 t) r.isLt) k) := by
  obtain ⟨e0, e1, -⟩ := idx2 t
  unfold iblk2
  rw [View.read_apply]
  show V c main_v72 _ = V c main_v72 _
  congr 1
  funext a
  apply Fin.ext
  match a with
  | ⟨0, _⟩ => show win2_0.index t 0 * 5000 + 1 * r.val = t.val * 5000 + r.val; rw [e0]; omega
  | ⟨1, _⟩ => show win2_0.index t 1 * 128 + 1 * k.val = k.val; rw [e1]; omega

theorem iblk2_1_apply (c : Dev nD) (t : Fin cfg2.N) (k : Fin 128) (q : Fin 8) :
    (iblk2 V c 1 t : Vec Ideal S128x8 .f32) (ix2 k q) = (V c main_arg6 : Vec Ideal S128x8 .f32) (ix2 k q) := by
  obtain ⟨-, -, e2, e3, -⟩ := idx2 t
  unfold iblk2
  rw [View.read_apply]
  show V c main_arg6 _ = V c main_arg6 _
  congr 1
  funext a
  apply Fin.ext
  match a with
  | ⟨0, _⟩ => show win2_1.index t 0 * 128 + 1 * k.val = k.val; rw [e2]; omega
  | ⟨1, _⟩ => show win2_1.index t 1 * 8 + 1 * q.val = q.val; rw [e3]; omega

theorem iblk2_2_apply (c : Dev nD) (t : Fin cfg2.N) (q : Fin 8) :
    (iblk2 V c 2 t : Vec Ideal S1x8 .f32) (ix2 (0 : Fin 1) q) = (V c main_v73 : Vec Ideal S1x8 .f32) (ix2 (0 : Fin 1) q) := by
  obtain ⟨-, -, -, -, e4, e5, -⟩ := idx2 t
  unfold iblk2
  rw [View.read_apply]
  show V c main_v73 _ = V c main_v73 _
  congr 1
  funext a
  apply Fin.ext
  match a with
  | ⟨0, _⟩ => show win2_2.index t 0 * 1 + 1 * 0 = 0; rw [e4]
  | ⟨1, _⟩ => show win2_2.index t 1 * 8 + 1 * q.val = q.val; rw [e5]; omega

/-- WHAT POINT `t` WRITES BACK is block `t` of `affine` of the arrays as region 2 finds them. -/
theorem flushed2_eq (c : Dev nD) (t : Fin cfg2.N) :
    (dat2 V c).flushed 3 t = ((cfg2.win 3).blk t).view.read (Elt Ideal) (affine (V c main_v72) (V c main_arg6) (V c main_v73)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x8) hz, View.ld_unit_zero (S := S1x8) hz]
  funext j
  obtain ⟨r, q, rfl⟩ : ∃ (r : Fin 5000) (q : Fin 8), j = ix2 r q := ⟨j 0, j 1, eq_ix2 j⟩
  obtain ⟨-, -, -, -, -, -, e6, e7⟩ := idx2 t
  unfold k2_pay1
  refine (tile_affine plain_nar (shapeCast S5000x128 (iblk2 V c 0 t) shapeCasts_S5000x128_S5000x128) (iblk2 V c 1 t) (iblk2 V c 2 t)
    (V c main_v72) (V c main_arg6) (V c main_v73)
    (fun r => rowOf t.val r.val (lt2 t) r.isLt) (fun r k => (congrFun (shapeCast_self (iblk2 V c 0 t : Vec Ideal S5000x128 .f32) shapeCasts_S5000x128_S5000x128) (ix2 r k)).trans (iblk2_0_apply V c t r k))
    (fun k q => iblk2_1_apply V c t k q)
    (fun q => iblk2_2_apply V c t q) bitsLt_bf16_f32 shapeCasts_S1x8_S1x8 broadcasts_S1x8_S5000x8 r q).trans ?_
  rw [View.read_apply]
  refine congrArg (affine (V c main_v72) (V c main_arg6) (V c main_v73)) ?_
  funext a
  apply Fin.ext
  match a with
  | ⟨0, _⟩ => show t.val * 5000 + r.val = win2_3.index t 0 * 5000 + 1 * r.val; rw [e6]; omega
  | ⟨1, _⟩ => show q.val = win2_3.index t 1 * 8 + 1 * q.val; rw [e7]; omega

theorem mem_blk2 (t : Fin cfg2.N) (i : S50000x8.Idx) :
    i ∈ ((cfg2.win 3).blk t).view.set ↔ ∀ a : Fin 2, win2_3.index t a * S5000x8.size a ≤ (i a).val ∧ (i a).val < win2_3.index t a * S5000x8.size a + S5000x8.size a := by
  show i ∈ ((View.whole main_v74).slice (win2_3.rect t)).set ↔ _
  rw [View.set_slice_whole, Rect.mem_set_unit]
  exact Iff.rfl

/-- THE ARRAY after region 2: the program's result. -/
theorem final2 (c : Dev nD) : (dat2 V c).arrAt 3 cfg2.N = affine (V c main_v72) (V c main_arg6) (V c main_v73) :=
  (dat2 V c).arrAt_eq_of_cover 3 (affine (V c main_v72) (V c main_arg6) (V c main_v73)) (fun t _ => flushed2_eq V c t) fun i => by
    have hi0 : (i 0).val < 50000 := (i 0).isLt
    have hi1 : (i 1).val < 8 := (i 1).isLt
    have hN : cfg2.N = 10 := N_2
    refine ⟨⟨(i 0).val / 5000, by omega⟩, flush2_3 _, ?_⟩
    rw [mem_blk2]
    obtain ⟨-, -, -, -, -, -, e6, e7⟩ := idx2 ⟨(i 0).val / 5000, by omega⟩
    intro a
    match a with
    | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
    | ⟨1, _⟩ => show win2_3.index _ (1 : Fin 2) * 8 ≤ (i 1).val ∧ (i 1).val < win2_3.index _ (1 : Fin 2) * 8 + 8; rw [e7]; omega

end Cert.KernelIdeal.Tiles

end
-- ==== Proof.Result.lean ====
/-
  The kernel program's result array, at the ideal values, is the plain program's last stage of the arguments.

  Following the run: the first kernel's output is `affine x W1 0 = x · W1`, the plain program's first `dot_general`; the
  host stretch after it turns that into `agg1`, so the second kernel's output is `affine (agg1 …) W2 0`, the plain
  program's second `dot_general` of its own aggregated stage; the next stretch gives `agg2`, and the third kernel's
  output `affine (agg2 …) Wfc (bfc as a row)` is the plain program's third `dot_general` plus `bfc` broadcast over the
  rows: its result. The zero bias rows add nothing (`x + 0 = x` on the extended reals), and nothing here uses finiteness.
-/
import proofs.«176271_j59846074302981_1_alg».proof.Proof.HostStages
import proofs.«176271_j59846074302981_1_alg».proof.Proof.Tiles
import proofs.«176271_j59846074302981_1_alg».proof.Proof.Dense

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.HostStages Cert.Lib Cert.Dense
open Cert.ReferenceIdeal.ReadP (val_main_v35 val_main_v51 val_main_v52 val_main_v68 val_main_v69 val_main_v70 val_main_v71 val_main_v72
  lhs_main_v35_0 lhs_main_v35_1 rhs_main_v35_0 rhs_main_v35_1 lhs_main_v69_0 lhs_main_v69_1 rhs_main_v69_0 rhs_main_v69_1)

/-- The plain program's `[50000,128] · [128,128]` record is a plain product (its generated axis facts). -/
theorem plain_ref_sq : PlainDot Cert.ReferenceIdeal.dot_S50000x128_S128x128_S50000x128_1_0_0_1_n_n :=
  ⟨rfl, rfl, lhs_main_v35_0, lhs_main_v35_1, rhs_main_v35_0, rhs_main_v35_1⟩
/-- And its `[50000,128] · [128,8]` record. -/
theorem plain_ref_nar : PlainDot Cert.ReferenceIdeal.dot_S50000x128_S128x8_S50000x8_1_0_0_1_n_n :=
  ⟨rfl, rfl, lhs_main_v69_0, lhs_main_v69_1, rhs_main_v69_0, rhs_main_v69_1⟩

/-- The zero vector made a row is zero at every entry. -/
theorem zero_row (q : Fin 128) :
    (shapeCast S1x128 (broadcastInDim S128 ![] bcast_S_S128 (constant (F := Ideal) S_ .f32 0x00000000#32)) shapeCasts_S128_S1x128
      : Vec Ideal S1x128 .f32) (ix2 (0 : Fin 1) q) = 0 := by
  rw [shapeCast_addUnit_apply ![128]]
  simp only [broadcastInDim, constant, Ideal.ofBits_def, Ideal.ofBits_zero_f32]

/-- A vector made a row reads, at `(0, q)`, the vector at `q`. -/
theorem row_of_vec (b : Vec Ideal S8 .f32) (q : Fin 8) :
    (shapeCast S1x8 b shapeCasts_S8_S1x8 : Vec Ideal S1x8 .f32) (ix2 (0 : Fin 1) q) = b (ix1 q) :=
  (shapeCast_addUnit_apply ![8] b shapeCasts_S8_S1x8 (ix2 (0 : Fin 1) q)).trans
    (congrArg b (funext fun a => by match a with | ⟨0, _⟩ => rfl))

variable (m : (ℓ : Loc nD τ sig) → Buf (Elt Ideal) ℓ) (ρ : Dev nD → PrngReg)

/-- The first kernel leaves the plain program's first product. -/
theorem first_product (c : Dev nD) : W4 m ρ c (Proc.devRef .tc main_v37) = val_main_v35 (F := Ideal) (m ((c : Thread nD τ).loc main_arg0)) (m ((c : Thread nD τ).loc main_arg2)) := by
  refine (W4_arr m ρ c 3).trans ((Tiles.final0 (V3 m ρ) c).trans ?_)
  show affine (W3 m ρ c (Proc.devRef .tc main_arg0)) (W3 m ρ c (Proc.devRef .tc main_arg2)) (W3 m ρ c (Proc.devRef .tc main_v36)) = _
  rw [W3_arg0, W3_arg2, W3_bias]
  exact affine_zero plain_ref_sq _ _ _ zero_row

/-- The second kernel leaves the plain program's second product. -/
theorem second_product (c : Dev nD) : W6 m ρ c (Proc.devRef .tc main_v56)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Tiles.final1 (V5 m ρ) c).trans ?_)
  show affine (W5 m ρ c (Proc.devRef .tc main_v53)) (W5 m ρ c (Proc.devRef .tc main_arg4)) (W5 m ρ c (Proc.devRef .tc main_v55)) = _
  rw [W5_agg, W5_arg4, W5_bias, first_product, agg1_dot]
  exact affine_zero plain_ref_sq _ _ _ zero_row

/-- The third kernel leaves the plain program's result. -/
theorem result (c : Dev nD) : W8 m ρ c (Proc.devRef .tc main_v74)
    = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((Tiles.final2 (V7 m ρ) c).trans ?_)
  show affine (W7 m ρ c (Proc.devRef .tc main_v72)) (W7 m ρ c (Proc.devRef .tc main_arg6)) (W7 m ρ c (Proc.devRef .tc main_v73)) = _
  rw [W7_agg, W7_arg6, W7_bias, second_product, agg2_dot]
  exact affine_bias plain_ref_nar _ _ _ (m ((c : Thread nD τ).loc main_arg7)) (fun q => row_of_vec _ q) Cert.ReferenceIdeal.Gen.bcast_S8_S1x8_1 Cert.ReferenceIdeal.Gen.bcast_S1x8_S50000x8_0_1

end Cert.KernelIdeal.Result

end
-- ==== Proof.lean ====
/-
  A two-layer graph convolution and a dense head, with the three matrix products done by row-tiled kernels.

  Both programs compute, from node features `x` and an edge list, `out = Â (Â (x W1) + b1) W2 + b2) Wfc + bfc`, where
  `Â h = scatter_add (norm · h[row]) at col` is the normalized aggregation over the edges and the self loops
  (`norm = dinv[row] · dinv[col]`, `dinv = deg > 0 ? rsqrt deg : 0`). The plain program computes each `· W` by one
  `dot_general`; the kernel program by a pallas_call over ten tiles of 5000 rows, the operands narrowed to bf16, a matrix
  unit accumulating into zeros, and a bias block added: a zero block for the first two products (their biases are added
  after the aggregation, as in the plain program) and `bfc` made a row for the last. The host operations around the
  products are the same in both programs.

  Over the extended reals narrowing is the identity, a tile's product entry is the textbook sum over the 128 contracted
  indices — the same sum the `dot_general` is —, and adding a zero row changes nothing; the ten tiles' blocks tile the
  50000 rows. So each kernel's output array is the plain program's product stage of the same arguments
  (Proof/Tiles.lean, Proof/Dense.lean), the stretches between the kernels carry one program's stages to the other's
  (Proof/HostStages.lean), and the result arrays agree entry by entry (Proof/Result.lean). No law used needs the inputs
  finite: the precondition is not opened. The idealization rewrote nothing, so `preserves` has nothing to state.
-/
import proofs.«176271_j59846074302981_1_alg».proof.Defs
import proofs.«176271_j59846074302981_1_alg».proof.Proof.Gen.Kernel
import proofs.«176271_j59846074302981_1_alg».proof.Proof.Gen.Kernel.Frame
import proofs.«176271_j59846074302981_1_alg».proof.Proof.Gen.KernelIdeal
import proofs.«176271_j59846074302981_1_alg».proof.Proof.Gen.KernelIdeal.Frame
import proofs.«176271_j59846074302981_1_alg».proof.Proof.Gen.ReferenceIdeal
import proofs.«176271_j59846074302981_1_alg».proof.Proof.Gen.Pre_finite_inputs
import proofs.«176271_j59846074302981_1_alg».proof.Proof.KernelIdealRun
import proofs.«176271_j59846074302981_1_alg».proof.Proof.RefRead
import proofs.«176271_j59846074302981_1_alg».proof.Proof.Result
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The plain program is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the plain program's last stage of the arguments: the kernel program's result array is that
    stage (`Result.result`), the plain program's run states its own term, which is the stage; the arguments agree. -/
theorem algebraic : Cert.algebraic_KernelIdeal_ReferenceIdeal := by
  intro m ρ m' ρ' _ hagree
  refine ⟨fun c => Cert.ReferenceIdeal.ReadP.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result m ρ c), (h c).2⟩) (Cert.KernelIdeal.RunV.run_main m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v72_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
